-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : FVec F S512x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S4000x512 : Shape := ⟨2, ![4000, 512]⟩
abbrev S4000x128 : Shape := ⟨2, ![4000, 128]⟩
abbrev S1600000x128 : Shape := ⟨2, ![1600000, 128]⟩
abbrev S100000x1 : Shape := ⟨2, ![100000, 1]⟩
abbrev S1x128 : Shape := ⟨2, ![1, 128]⟩
abbrev S4000x1 : Shape := ⟨2, ![4000, 1]⟩
abbrev S1x16 : Shape := ⟨2, ![1, 16]⟩
abbrev S100000x16 : Shape := ⟨2, ![100000, 16]⟩
abbrev S4000x16 : Shape := ⟨2, ![4000, 16]⟩

abbrev nBuf : Space → Nat
  | .hbm => 105
  | .vmem => 34
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000, .f32⟩
  | .hbm, ⟨83, _⟩ => ⟨S1600000, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S1600000x1, .f32⟩
  | .hbm, ⟨94, _⟩ => ⟨S1600000x128, .f32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S100000x1, .f32⟩
  | .hbm, ⟨101, _⟩ => ⟨S1x128, .f32⟩
  | .hbm, ⟨102, _⟩ => ⟨S100000x128, .f32⟩
  | .hbm, ⟨103, _⟩ => ⟨S1x16, .f32⟩
  | .hbm, ⟨104, _⟩ => ⟨S100000x16, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S128x16, .f32⟩
  | .local _ .vmem, ⟨31, _⟩ => ⟨S1x16, .f32⟩
  | .local _ .vmem, ⟨32, _⟩ => ⟨S4000x16, .f32⟩
  | .local _ .vmem, ⟨33, _⟩ => ⟨S4000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  scatter_S100000_S1600000x1_S1600000_n_0_0_1_wf : ScatterDims.WF S100000 S1600000x1 S1600000 [] [0] [0] 1
  dot_S4000x512_S512x128_S4000x128_1_0_0_1_n_n_wf : DotDims.WF S4000x512 S512x128 S4000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x16_S4000x16_1_0_0_1_n_n_wf : DotDims.WF S4000x128 S128x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x16.size a ≤ S100000x16.size a
  hwx4_3 : ∀ i : grid4.Coords, EltTy.bits .f32 = 32 ∨ (Rect.block (s := S100000x16) S4000x16.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v76) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S4000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩

abbrev nBuf : Space → Nat
  | .hbm => 121
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000, .f32⟩
  | .hbm, ⟨90, _⟩ => ⟨S1600000, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x128, .f32⟩
  | .hbm, ⟨100, _⟩ => ⟨S1600000x1, .f32⟩
  | .hbm, ⟨101, _⟩ => ⟨S1600000x128, .f32⟩
  | .hbm, ⟨102, _⟩ => ⟨S1600000x128, .f32⟩
  | .hbm, ⟨103, _⟩ => ⟨S_, .f32⟩
  | .hbm, ⟨104, _⟩ => ⟨S100000x128, .f32⟩
  | .hbm, ⟨105, _⟩ => ⟨S1600000x1, .i32⟩
  | .hbm, ⟨106, _⟩ => ⟨S100000x128, .f32⟩
  | .hbm, ⟨107, _⟩ => ⟨S100000x1, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S100000x128, .f32⟩
  | .hbm, ⟨114, _⟩ => ⟨S_, .f32⟩
  | .hbm, ⟨115, _⟩ => ⟨S100000x128, .f32⟩
  | .hbm, ⟨116, _⟩ => ⟨S100000x128, .f32⟩
  | .hbm, ⟨117, _⟩ => ⟨S100000x16, .f32⟩
  | .hbm, ⟨118, _⟩ => ⟨S1x16, .f32⟩
  | .hbm, ⟨119, _⟩ => ⟨S100000x16, .f32⟩
  | .hbm, ⟨120, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_cst : Ref sig .tc := ⟨.hbm, 114, rfl⟩
abbrev main_call1_v0 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  dot_S100000x512_S512x128_S100000x128_1_0_0_1_n_n_wf : DotDims.WF S100000x512 S512x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.HostChain.lean ====
/-
  The host arithmetic around the dense steps, named once and never opened.

  From the [2, e] edge list: its two rows (sources, targets); the degree of a node, 1 + the number of edges into
  it (a scatter-add of ones into zeros, plus one); the per-node factors deg⁻¹ᐟ² and deg⁻¹. An index vector is
  made non-negative by adding the node count to its negative entries before it addresses rows. The aggregation
  `aggOf src dst dis H` gathers row src(e) of H for every edge e, scales it by dis(src e) · dis(dst e), and
  scatter-adds the scaled rows into a zero array at row dst(e). Both layers of both programs apply exactly these
  operations, so the certificate only ever needs that equal inputs give equal outputs.
-/
import proofs.«111292_j54030688584325_1_alg».proof.Proof.Gen.KernelIdeal

noncomputable section

namespace Cert.KernelIdeal.Host

open Cert.KernelIdeal Cert.KernelIdeal.Facts₀ Cert.KernelIdeal.Facts Idealize.ShloMosaic Idealize.ShloMosaic.TcCoe

variable {F : FTy → Type} [FloatOps F]

/-- Row 0 of the edge list: the source node of every edge. -/
def srcOf (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the edge list: the target node of every edge. -/
def dstOf (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- An index vector with the node count added to its negative entries, as a column of row addresses. -/
def wrapIdx (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The degree with the self-loop: ones scatter-added at the targets into zeros, plus one. -/
def degOf (dst : (⟨S1600000, .i32⟩ : BufTy).Contents (Elt F)) : (⟨S100000, .f32⟩ : BufTy).Contents (Elt F) :=
  addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- deg⁻¹ᐟ², node by node. -/
def disOf (dst : (⟨S1600000, .i32⟩ : BufTy).Contents (Elt F)) : (⟨S100000, .f32⟩ : BufTy).Contents (Elt F) :=
  Host.rsqrt (degOf dst)

/-- deg⁻¹ = 1 / deg, node by node. -/
def dinvOf (dst : (⟨S1600000, .i32⟩ : BufTy).Contents (Elt F)) : (⟨S100000, .f32⟩ : BufTy).Contents (Elt F) :=
  Host.divf (broadcastInDim S100000 ![] bcast_S_S100000 (constant S_ .f32 0x3F800000#32)) (degOf dst)

/-- The aggregation: for every edge the source's row of `h`, scaled by the two endpoints' factors, summed into the
    target's row of a zero array. -/
def aggOf (src dst : (⟨S1600000, .i32⟩ : BufTy).Contents (Elt F)) (dis : (⟨S100000, .f32⟩ : BufTy).Contents (Elt F))
    (h : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 h (wrapIdx src))
      (broadcastInDim S1600000x128 ![0, 1] bcast_S1600000x1_S1600000x128_0_1
        (broadcastInDim S1600000x1 ![0] bcast_S1600000_S1600000x1_0
          (mulf (Host.gather gather_S100000_S1600000x1_S1600000_n_0_n_n_0_1_1 dis (wrapIdx src))
            (Host.gather gather_S100000_S1600000x1_S1600000_n_0_n_n_0_1_1 dis (wrapIdx dst))))))

end Cert.KernelIdeal.Host

end
-- ==== Proof.Spec.lean ====
/-
  The mathematics both programs compute, stated once over whole arrays, index by index.

  A two-layer graph convolution followed by a linear head. With A the [n, d] node features, ei the [2, e] edge
  list (row 0 the sources, row 1 the targets), deg v = 1 + #{edges into v}:
    layer (X, W, b) = relu ((agg (X W) + (X W) · deg⁻¹) + b),
  where agg H sums, into each target row, the source rows of H scaled by deg⁻¹ᐟ²(source) · deg⁻¹ᐟ²(target). The three
  dense steps are named here: the matrix product `mm`, the self-loop/bias/relu step `combine`, and the head
  `head` = product plus a bias row. The gather–scale–scatter step `agg` is the same list of host operations in both
  programs and is carried as one function that is never opened (it lives beside the printed program, whose
  dimension records it needs).
-/
import Idealize.ShloMosaic.Lib.ValueIdx
import Idealize.ShloMosaic.PureOps.Ideal.Laws

noncomputable section

namespace Cert.Spec

open Idealize.ShloMosaic Idealize.ShloMosaic.ValueIdx

variable {F : FTy → Type} [FloatOps F]

/-- The row coordinate of a rank-2 index, typed by the first extent itself. -/
abbrev row {R C : ℕ} (i : (⟨2, ![R, C]⟩ : Shape).Idx) : Fin R := ⟨(i 0).val, idx2_lt0 i⟩
/-- The column coordinate of a rank-2 index, typed by the second extent itself. -/
abbrev col {R C : ℕ} (i : (⟨2, ![R, C]⟩ : Shape).Idx) : Fin C := ⟨(i 1).val, idx2_lt1 i⟩

/-- relu ((agg + h · dinv[row]) + b[col]), entry by entry, at any float instance: the additions associated as both
    programs associate them, the product with the per-row factor on the right, the maximum against the zero word. -/
def combine {R C : ℕ} (agg h : FVec F ⟨2, ![R, C]⟩ .f32) (dinv : FVec F ⟨1, ![R]⟩ .f32) (b : FVec F ⟨1, ![C]⟩ .f32) :
    FVec F ⟨2, ![R, C]⟩ .f32 := fun i =>
  FloatOps.maximumf
    (FloatOps.addf (FloatOps.addf (agg i) (FloatOps.mulf (h i) (dinv (ix1 (row i))))) (b (ix1 (col i))))
    (FloatOps.ofBits .f32 0x00000000#32)

/-- The matrix product over the extended reals: entry (p, q) is ∑ₖ a (p, k) · w (k, q). -/
def mm {M K N : ℕ} (a : FVec Ideal ⟨2, ![M, K]⟩ .f32) (w : FVec Ideal ⟨2, ![K, N]⟩ .f32) :
    FVec Ideal ⟨2, ![M, N]⟩ .f32 := fun i =>
  ∑ k : Fin K, a (ix2 (row i) k) * w (ix2 k (col i))

/-- The linear head: the matrix product plus the bias at the entry's column. -/
def head {M K N : ℕ} (a : FVec Ideal ⟨2, ![M, K]⟩ .f32) (w : FVec Ideal ⟨2, ![K, N]⟩ .f32)
    (b : FVec Ideal ⟨1, ![N]⟩ .f32) : FVec Ideal ⟨2, ![M, N]⟩ .f32 := fun i =>
  FloatOps.addf (mm a w i) (b (ix1 (col i)))

end Cert.Spec

end
-- ==== Proof.Model.lean ====
/-
  The whole computation as one function of the eight argument arrays: two graph-convolution layers and the head.

    layer ei X W b = combine (agg (X·W)) (X·W) deg⁻¹ b      (agg over the edge list ei, with the deg⁻¹ᐟ² factors)
    emb            = layer ei (layer ei x W₁ b₁) W₂ b₂
    out            = emb · Wₗ + bₗ
  Both programs are shown to end with `out` and `emb` in their two result arrays.
-/
import proofs.«111292_j54030688584325_1_alg».proof.Proof.Spec
import proofs.«111292_j54030688584325_1_alg».proof.Proof.HostChain

noncomputable section

namespace Cert.Model

open Cert.KernelIdeal Cert.KernelIdeal.Host Idealize.ShloMosaic Idealize.ShloMosaic.TcCoe

/-- One layer on [100000, k] features: the product, its aggregation over the edges, the self-loop term with
    deg⁻¹, the bias, the relu. -/
def layer {k : ℕ} (ei : (⟨S2x1600000, .i32⟩ : BufTy).Contents (Elt Ideal)) (X : FVec Ideal ⟨2, ![100000, k]⟩ .f32)
    (W : FVec Ideal ⟨2, ![k, 128]⟩ .f32) (b : FVec Ideal ⟨1, ![128]⟩ .f32) : FVec Ideal ⟨2, ![100000, 128]⟩ .f32 :=
  Cert.Spec.combine (aggOf (srcOf ei) (dstOf ei) (disOf (dstOf ei)) (Cert.Spec.mm X W)) (Cert.Spec.mm X W) (dinvOf (dstOf ei)) b

/-- The embeddings: two layers. -/
def emb (x : FVec Ideal ⟨2, ![100000, 512]⟩ .f32) (ei : (⟨S2x1600000, .i32⟩ : BufTy).Contents (Elt Ideal))
    (W1 : FVec Ideal ⟨2, ![512, 128]⟩ .f32) (b1 : FVec Ideal ⟨1, ![128]⟩ .f32)
    (W2 : FVec Ideal ⟨2, ![128, 128]⟩ .f32) (b2 : FVec Ideal ⟨1, ![128]⟩ .f32) : FVec Ideal ⟨2, ![100000, 128]⟩ .f32 :=
  layer ei (layer ei x W1 b1) W2 b2

/-- The output: the head on the embeddings. -/
def out (x : FVec Ideal ⟨2, ![100000, 512]⟩ .f32) (ei : (⟨S2x1600000, .i32⟩ : BufTy).Contents (Elt Ideal))
    (W1 : FVec Ideal ⟨2, ![512, 128]⟩ .f32) (b1 : FVec Ideal ⟨1, ![128]⟩ .f32)
    (W2 : FVec Ideal ⟨2, ![128, 128]⟩ .f32) (b2 : FVec Ideal ⟨1, ![128]⟩ .f32)
    (Wl : FVec Ideal ⟨2, ![128, 16]⟩ .f32) (bl : FVec Ideal ⟨1, ![16]⟩ .f32) : FVec Ideal ⟨2, ![100000, 16]⟩ .f32 :=
  Cert.Spec.head (emb x ei W1 b1 W2 b2) Wl bl

end Cert.Model

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.Region0.lean ====
/-
  Region 0: the first dense product H = X·W₁, computed block by block.

  The grid has 25 points; point t takes rows 4000·t … 4000·t + 3999 of X (all 512 columns), the whole of W₁, and
  writes the same rows of H. At the exact instance the two changes of float format are the identity and the body's
  product into a zero accumulator is, entry by entry, ∑ₖ X(p, k) · W₁(k, q) over the block's own rows; a block's
  row r of point t is row 4000·t + r of the array, so what point t writes back is block t of the whole product
  `Spec.mm X W₁`. The 25 blocks tile the 100000 rows (row i lies in the block of point i / 4000), so after the
  region the array holds the whole product. Everything is stated at the contents `V` the region is entered with.
-/
import proofs.«111292_j54030688584325_1_alg».proof.Proof.Gen.KernelIdeal.Frame
import proofs.«111292_j54030688584325_1_alg».proof.Proof.LibMatmulPlain
import proofs.«111292_j54030688584325_1_alg».proof.Proof.Spec
import Idealize.ShloMosaic.Lib.Pipeline.Value

set_option maxRecDepth 16384

noncomputable section
namespace Cert.KernelIdeal.Regions
open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-block access, as a function. -/
theorem hz0 : (![0, 0] : Fin 2 → Nat) = fun _ => 0 := funext fun a => by fin_cases a <;> rfl

/-- The body's arithmetic at entry (p, q) of a block: the sum over the contraction coordinate. -/
theorem pay0_apply (x : Vec Ideal S4000x512 .f32) (w : Vec Ideal S512x128 .f32) (p : Fin 4000) (q : Fin 128) :
    k0_pay1 (F := Ideal) x w (ix2 p q) = ∑ k : Fin 512, x (ix2 p k) * w (ix2 k q) :=
  MatmulPlain.matmul_zero_apply none x w p q

/-- A block's entry equals the whole product's entry as soon as the block's row of X and column of W₁ are the
    array's (hypotheses over plain coordinates, instantiated at a grid point below). -/
theorem mm_block0 (xb : Vec Ideal S4000x512 .f32) (wb : Vec Ideal S512x128 .f32)
    (X : FVec Ideal S100000x512 .f32) (Wt : FVec Ideal S512x128 .f32) (j : S4000x128.Idx) (i : S100000x128.Idx)
    (hx : ∀ k : Fin 512, xb (ix2 (Cert.Spec.row j) k) = X (ix2 (Cert.Spec.row i) k))
    (hw : ∀ k : Fin 512, wb (ix2 k (Cert.Spec.col j)) = Wt (ix2 k (Cert.Spec.col i))) :
    k0_pay1 (F := Ideal) xb wb j = Cert.Spec.mm X Wt i := by
  have hj : j = ix2 (Cert.Spec.row j) (Cert.Spec.col j) := by
    funext a; match a with | ⟨0, _⟩ => rfl | ⟨1, _⟩ => rfl
  rw [hj, pay0_apply]
  unfold Cert.Spec.mm
  exact Finset.sum_congr rfl fun k _ => by rw [hx k, hw k]

/-- The two arrays the region reads, at their literal types. -/
abbrev xarr0 (c : Dev nD) : FVec Ideal S100000x512 .f32 := V c main_arg0
abbrev warr0 (c : Dev nD) : FVec Ideal S512x128 .f32 := V c main_arg2

/-- The printed index maps over the 25 points: X's and H's row-block index is the point itself, every other block
    index is 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of the whole product. -/
theorem flushed0 (c : Dev nD) (t : Fin cfg0.N) :
    (dat0 V c).flushed 2 t = ((cfg0.win 2).blk t).view.read (Elt Ideal) (Cert.Spec.mm (xarr0 V c) (warr0 V c)) := by
  show (cfg0.win 2).cut (grid0.coords t) ((dat0 V c).after 2 t) = _
  rw [after0_2]
  unfold out0_2
  rw [View.canon_unit_zero hz0]
  simp only [View.ld_unit_zero (S := S4000x512) hz0, View.ld_unit_zero (S := S512x128) hz0]
  obtain ⟨e0, e1, e2, e3, e4, e5⟩ := idx_facts0 t
  funext j
  show k0_pay1 (F := Ideal) (iblk0 V c 0 t) (iblk0 V c 1 t) j = Cert.Spec.mm (xarr0 V c) (warr0 V c) (((cfg0.win 2).blk t).view.emb j)
  refine mm_block0 _ _ _ _ j _ (fun k => ?_) (fun k => ?_)
  · show V c main_arg0 (((cfg0.win 0).blk t).view.emb (ix2 (Cert.Spec.row j) k)) = V c main_arg0 _
    refine congrArg _ (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * k.val = k.val; omega
  · show V c main_arg2 (((cfg0.win 1).blk t).view.emb (ix2 k (Cert.Spec.col j))) = V c main_arg2 _
    refine congrArg _ (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega

/-- An entry lies in point t's block iff each coordinate lies in the block's range on its axis. -/
theorem mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v13).slice (win0_2.rect t)).set ↔ _
  rw [View.set_slice_whole, Rect.mem_set_unit]
  exact Iff.rfl

/-- Every entry lies in the block of the point its row divided by 4000 names. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 4000, by show (i 0).val / 4000 < 25; omega⟩
  obtain ⟨e0, e1, e2, e3, e4, e5⟩ := idx_facts0 t
  have e5' : win0_2.index t (0 : Fin 2) = (i 0).val / 4000 := e5
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- After region 0 the product array holds the whole matrix product of the arrays the region found. -/
theorem final0 (c : Dev nD) : (dat0 V c).arrAt 2 cfg0.N = Cert.Spec.mm (xarr0 V c) (warr0 V c) :=
  (dat0 V c).arrAt_eq_of_cover 2 (Cert.Spec.mm (xarr0 V c) (warr0 V c)) (fun t _ => flushed0 V c t) cover0

end Cert.KernelIdeal.Regions
end
-- ==== Proof.Region1.lean ====
/-
  Region 1: the first layer's self-loop, bias and relu step, block by block.

  The grid has 25 points; point t takes rows 4000·t … 4000·t + 3999 of the aggregated messages, of the product H,
  and of the [n, 1] column of per-row factors deg⁻¹, the whole [1, 128] bias row, and writes the same rows of
  relu ((agg + H · deg⁻¹[row]) + b[col]). The body is pointwise: the column of factors is read at the entry's row,
  the bias row at the entry's column. A block's row r of point t is row 4000·t + r of each row-blocked array, so
  what point t writes back is block t of the whole-array step `Spec.combine`, and the 25 blocks tile the
  100000 rows. Everything is stated at the contents `V` the region is entered with.
-/
import proofs.«111292_j54030688584325_1_alg».proof.Proof.Gen.KernelIdeal.Frame
import proofs.«111292_j54030688584325_1_alg».proof.Proof.LibMatmulPlain
import proofs.«111292_j54030688584325_1_alg».proof.Proof.Spec
import Idealize.ShloMosaic.Lib.Pipeline.Value
import Idealize.ShloMosaic.Lib.ValueLayout
set_option maxRecDepth 16384

noncomputable section
namespace Cert.KernelIdeal.Regions
open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-block access, as a function. -/
theorem hz1 : (![0, 0] : Fin 2 → Nat) = fun _ => 0 := funext fun a => by fin_cases a <;> rfl

/-- A [4000, 1] column broadcast along the rows' 128 entries reads, at (p, q), the column at p. -/
theorem bcast_col1 {α : Type} (v : S4000x1.Idx → α) (h : S4000x1.Broadcasts S4000x128) (p : Fin 4000) (q : Fin 128) :
    broadcastTo S4000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's arithmetic at entry (p, q) of a block: the sum and the per-row product entrywise, the column of
    per-row factors read at p, the bias row read at q, the maximum against the zero word. -/
theorem pay1_apply (a h : Vec Ideal S4000x128 .f32) (d : Vec Ideal S4000x1 .f32) (b : Vec Ideal S1x128 .f32) (p : Fin 4000) (q : Fin 128) :
    k1_pay1 (F := Ideal) a h d b (ix2 p q)
      = FloatOps.maximumf (FloatOps.addf (FloatOps.addf (a (ix2 p q)) (FloatOps.mulf (h (ix2 p q)) (d (ix2 p (0 : Fin 1))))) (b (ix2 (0 : Fin 1) q)))
          (FloatOps.ofBits .f32 0x00000000#32) := by
  unfold k1_pay1
  simp only [shapeCast_self]
  show FloatOps.maximumf (F := Ideal) (φ := .f32) (FloatOps.addf (FloatOps.addf (a (ix2 p q)) (FloatOps.mulf (h (ix2 p q)) (broadcastTo S4000x128 d broadcasts_S4000x1_S4000x128 (ix2 p q)))) (broadcastTo S4000x128 b broadcasts_S1x128_S4000x128 (ix2 p q))) (FloatOps.ofBits .f32 0x00000000#32) = _
  rw [bcast_col1, broadcastTo_1b_ab_apply]

/-- A block's entry equals the whole-array step's entry as soon as the four block entries it reads are the arrays'
    (hypotheses over plain coordinates, instantiated at a grid point below). -/
theorem combine_block1 (ab hb : Vec Ideal S4000x128 .f32) (db : Vec Ideal S4000x1 .f32) (bb : Vec Ideal S1x128 .f32)
    (A H : FVec Ideal S100000x128 .f32) (D : FVec Ideal ⟨1, ![100000]⟩ .f32) (B : FVec Ideal ⟨1, ![128]⟩ .f32)
    (j : S4000x128.Idx) (i : S100000x128.Idx)
    (ha : ab j = A i) (hh : hb j = H i)
    (hd : db (ix2 (Cert.Spec.row j) (0 : Fin 1)) = D (ix1 (Cert.Spec.row i)))
    (hbias : bb (ix2 (0 : Fin 1) (Cert.Spec.col j)) = B (ix1 (Cert.Spec.col i))) :
    k1_pay1 (F := Ideal) ab hb db bb j = Cert.Spec.combine A H D B i := by
  have hj : j = ix2 (Cert.Spec.row j) (Cert.Spec.col j) := by
    funext a; match a with | ⟨0, _⟩ => rfl | ⟨1, _⟩ => rfl
  rw [hj, pay1_apply, ← hj, ha, hh, hd, hbias]
  rfl

/-- The arrays the region reads, at their literal types; the per-row factors and the bias read off the [n, 1] column
    and the [1, 128] row the region is given. -/
abbrev aggarr1 (c : Dev nD) : FVec Ideal S100000x128 .f32 := V c main_v41
abbrev harr1 (c : Dev nD) : FVec Ideal S100000x128 .f32 := V c main_v13
abbrev dcol1 (c : Dev nD) : FVec Ideal S100000x1 .f32 := V c main_v42
abbrev brow1 (c : Dev nD) : FVec Ideal S1x128 .f32 := V c main_v43
def dinv1 (c : Dev nD) : FVec Ideal ⟨1, ![100000]⟩ .f32 := fun r => dcol1 V c (ix2 (⟨(r 0).val, (r 0).isLt⟩ : Fin 100000) (0 : Fin 1))
def bias1 (c : Dev nD) : FVec Ideal ⟨1, ![128]⟩ .f32 := fun q => brow1 V c (ix2 (0 : Fin 1) (⟨(q 0).val, (q 0).isLt⟩ : Fin 128))

/-- The printed index maps over the 25 points: the three row-blocked inputs and the output move with the point, the
    bias row stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the whole-array step. -/
theorem flushed1 (c : Dev nD) (t : Fin cfg1.N) :
    (dat1 V c).flushed 4 t = ((cfg1.win 4).blk t).view.read (Elt Ideal)
      (Cert.Spec.combine (aggarr1 V c) (harr1 V c) (dinv1 V c) (bias1 V c)) := by
  show (cfg1.win 4).cut (grid1.coords t) ((dat1 V c).after 4 t) = _
  rw [after1_4]
  unfold out1_4
  rw [View.canon_unit_zero hz1]
  simp only [View.ld_unit_zero (S := S4000x128) hz1, View.ld_unit_zero (S := S4000x1) hz1, View.ld_unit_zero (S := S1x128) hz1]
  obtain ⟨e00, e01, e10, e11, e20, e21, e30, e31, e40, e41⟩ := idx_facts1 t
  funext j
  show k1_pay1 (F := Ideal) (iblk1 V c 0 t) (iblk1 V c 1 t) (iblk1 V c 2 t) (iblk1 V c 3 t) j
    = Cert.Spec.combine (aggarr1 V c) (harr1 V c) (dinv1 V c) (bias1 V c) (((cfg1.win 4).blk t).view.emb j)
  refine combine_block1 _ _ _ _ _ _ _ _ j _ ?_ ?_ ?_ ?_
  · show V c main_v41 (((cfg1.win 0).blk t).view.emb j) = V c main_v41 _
    refine congrArg _ (funext fun a => Fin.ext ?_)
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 128 + 1 * (j 1).val = win1_4.index t (1 : Fin 2) * 128 + 1 * (j 1).val; omega
  · show V c main_v13 (((cfg1.win 1).blk t).view.emb j) = V c main_v13 _
    refine congrArg _ (funext fun a => Fin.ext ?_)
    match a with
    | ⟨0, _⟩ => show win1_1.index t (0 : Fin 2) * 4000 + 1 * (j 0).val = win1_4.index t (0 : Fin 2) * 4000 + 1 * (j 0).val; omega
    | ⟨1, _⟩ => show win1_1.index t (1 : Fin 2) * 128 + 1 * (j 1).val = win1_4.index t (1 : Fin 2) * 128 + 1 * (j 1).val; omega
  · show V c main_v42 (((cfg1.win 2).blk t).view.emb (ix2 (Cert.Spec.row j) (0 : Fin 1))) = V c main_v42 _
    refine congrArg _ (funext fun a => Fin.ext ?_)
    match a with
    | ⟨0, _⟩ => show win1_2.index t (0 : Fin 2) * 4000 + 1 * (j 0).val = win1_4.index t (0 : Fin 2) * 4000 + 1 * (j 0).val; omega
    | ⟨1, _⟩ => show win1_2.index t (1 : Fin 2) * 1 + 1 * 0 = 0; omega
  · show V c main_v43 (((cfg1.win 3).blk t).view.emb (ix2 (0 : Fin 1) (Cert.Spec.col j))) = V c main_v43 _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An entry lies in point t's block iff each coordinate lies in the block's range on its axis. -/
theorem mem_blk1 (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v44).slice (win1_4.rect t)).set ↔ _
  rw [View.set_slice_whole, Rect.mem_set_unit]
  exact Iff.rfl

/-- Every entry lies in the block of the point its row divided by 4000 names. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 4000, by show (i 0).val / 4000 < 25; omega⟩
  obtain ⟨e00, e01, e10, e11, e20, e21, e30, e31, e40, e41⟩ := idx_facts1 t
  have e40' : win1_4.index t (0 : Fin 2) = (i 0).val / 4000 := e40
  refine ⟨t, flush1_4 t, ?_⟩
  rw [mem_blk1]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- After the region the output array holds the whole-array step of the arrays the region found. -/
theorem final1 (c : Dev nD) : (dat1 V c).arrAt 4 cfg1.N
    = Cert.Spec.combine (aggarr1 V c) (harr1 V c) (dinv1 V c) (bias1 V c) :=
  (dat1 V c).arrAt_eq_of_cover 4 (Cert.Spec.combine (aggarr1 V c) (harr1 V c) (dinv1 V c) (bias1 V c)) (fun t _ => flushed1 V c t) cover1

end Cert.KernelIdeal.Regions
end
-- ==== Proof.Region2.lean ====
/-
  Region 2: the second dense product H₂ = A₁·W₂, computed block by block (A₁ the first layer's output).

  As in the first product the grid has 25 points; point t takes rows 4000·t … 4000·t + 3999 of A₁ (128 columns),
  the whole of W₂, and writes the same rows of H₂. The body first re-reads its block at its own shape (the
  identity), then changes the float format (the identity at the exact instance) and multiplies into a zero
  accumulator: entry (p, q) of a block is ∑ₖ A₁(4000·t + p, k) · W₂(k, q). So what point t writes back is block t
  of `Spec.mm A₁ W₂`, and the 25 blocks tile the rows.
-/
import proofs.«111292_j54030688584325_1_alg».proof.Proof.Gen.KernelIdeal.Frame
import proofs.«111292_j54030688584325_1_alg».proof.Proof.LibMatmulPlain
import proofs.«111292_j54030688584325_1_alg».proof.Proof.Spec
import Idealize.ShloMosaic.Lib.Pipeline.Value

set_option maxRecDepth 16384

noncomputable section
namespace Cert.KernelIdeal.Regions
open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-block access, as a function. -/
theorem hz2 : (![0, 0] : Fin 2 → Nat) = fun _ => 0 := funext fun a => by fin_cases a <;> rfl

/-- The body's arithmetic at entry (p, q) of a block: the same-shape cast dropped, the sum over the contraction
    coordinate. -/
theorem pay2_apply (x : Vec Ideal S4000x128 .f32) (w : Vec Ideal S128x128 .f32) (p : Fin 4000) (q : Fin 128) :
    k2_pay1 (F := Ideal) x w (ix2 p q) = ∑ k : Fin 128, x (ix2 p k) * w (ix2 k q) := by
  unfold k2_pay1
  simp only [shapeCast_self]
  exact MatmulPlain.matmul_zero_apply none x w p q

/-- A block's entry equals the whole product's entry as soon as the block's row of A₁ and column of W₂ are the
    arrays'. -/
theorem mm_block2 (xb : Vec Ideal S4000x128 .f32) (wb : Vec Ideal S128x128 .f32)
    (X : FVec Ideal S100000x128 .f32) (Wt : FVec Ideal S128x128 .f32) (j : S4000x128.Idx) (i : S100000x128.Idx)
    (hx : ∀ k : Fin 128, xb (ix2 (Cert.Spec.row j) k) = X (ix2 (Cert.Spec.row i) k))
    (hw : ∀ k : Fin 128, wb (ix2 k (Cert.Spec.col j)) = Wt (ix2 k (Cert.Spec.col i))) :
    k2_pay1 (F := Ideal) xb wb j = Cert.Spec.mm X Wt i := by
  have hj : j = ix2 (Cert.Spec.row j) (Cert.Spec.col j) := by
    funext a; match a with | ⟨0, _⟩ => rfl | ⟨1, _⟩ => rfl
  rw [hj, pay2_apply]
  unfold Cert.Spec.mm
  exact Finset.sum_congr rfl fun k _ => by rw [hx k, hw k]

/-- The two arrays the region reads, at their literal types. -/
abbrev xarr2 (c : Dev nD) : FVec Ideal S100000x128 .f32 := V c main_v44
abbrev warr2 (c : Dev nD) : FVec Ideal S128x128 .f32 := V c main_arg4

/-- The printed index maps over the 25 points: A₁'s and H₂'s row-block index is the point itself, every other block
    index is 0. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point t writes back is block t of the whole product. -/
theorem flushed2 (c : Dev nD) (t : Fin cfg2.N) :
    (dat2 V c).flushed 2 t = ((cfg2.win 2).blk t).view.read (Elt Ideal) (Cert.Spec.mm (xarr2 V c) (warr2 V c)) := by
  show (cfg2.win 2).cut (grid2.coords t) ((dat2 V c).after 2 t) = _
  rw [after2_2]
  unfold out2_2
  rw [View.canon_unit_zero hz2]
  simp only [View.ld_unit_zero (S := S4000x128) hz2, View.ld_unit_zero (S := S128x128) hz2]
  obtain ⟨e0, e1, e2, e3, e4, e5⟩ := idx_facts2 t
  funext j
  show k2_pay1 (F := Ideal) (iblk2 V c 0 t) (iblk2 V c 1 t) j = Cert.Spec.mm (xarr2 V c) (warr2 V c) (((cfg2.win 2).blk t).view.emb j)
  refine mm_block2 _ _ _ _ j _ (fun k => ?_) (fun k => ?_)
  · show V c main_v44 (((cfg2.win 0).blk t).view.emb (ix2 (Cert.Spec.row j) k)) = V c main_v44 _
    refine congrArg _ (funext fun a => Fin.ext ?_)
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 128 + 1 * k.val = k.val; omega
  · show V c main_arg4 (((cfg2.win 1).blk t).view.emb (ix2 k (Cert.Spec.col j))) = V c main_arg4 _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An entry lies in point t's block iff each coordinate lies in the block's range on its axis. -/
theorem mem_blk2 (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v45).slice (win2_2.rect t)).set ↔ _
  rw [View.set_slice_whole, Rect.mem_set_unit]
  exact Iff.rfl

/-- Every entry lies in the block of the point its row divided by 4000 names. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 4000, by show (i 0).val / 4000 < 25; omega⟩
  obtain ⟨e0, e1, e2, e3, e4, e5⟩ := idx_facts2 t
  have e5' : win2_2.index t (0 : Fin 2) = (i 0).val / 4000 := e5
  refine ⟨t, flush2_2 t, ?_⟩
  rw [mem_blk2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- After region 2 the product array holds the whole matrix product of the arrays the region found. -/
theorem final2 (c : Dev nD) : (dat2 V c).arrAt 2 cfg2.N = Cert.Spec.mm (xarr2 V c) (warr2 V c) :=
  (dat2 V c).arrAt_eq_of_cover 2 (Cert.Spec.mm (xarr2 V c) (warr2 V c)) (fun t _ => flushed2 V c t) cover2

end Cert.KernelIdeal.Regions
end
-- ==== Proof.Region3.lean ====
/-
  Region 3: the second layer's self-loop, bias and relu step, block by block.

  The grid has 25 points; point t takes rows 4000·t … 4000·t + 3999 of the aggregated messages, of the product H₂,
  and of the [n, 1] column of per-row factors deg⁻¹, the whole [1, 128] bias row, and writes the same rows of
  relu ((agg + H · deg⁻¹[row]) + b[col]). The body is pointwise: the column of factors is read at the entry's row,
  the bias row at the entry's column. A block's row r of point t is row 4000·t + r of each row-blocked array, so
  what point t writes back is block t of the whole-array step `Spec.combine`, and the 25 blocks tile the
  100000 rows. Everything is stated at the contents `V` the region is entered with.
-/
import proofs.«111292_j54030688584325_1_alg».proof.Proof.Gen.KernelIdeal.Frame
import proofs.«111292_j54030688584325_1_alg».proof.Proof.LibMatmulPlain
import proofs.«111292_j54030688584325_1_alg».proof.Proof.Spec
import Idealize.ShloMosaic.Lib.Pipeline.Value
import Idealize.ShloMosaic.Lib.ValueLayout
set_option maxRecDepth 16384

noncomputable section
namespace Cert.KernelIdeal.Regions
open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-block access, as a function. -/
theorem hz3 : (![0, 0] : Fin 2 → Nat) = fun _ => 0 := funext fun a => by fin_cases a <;> rfl

/-- A [4000, 1] column broadcast along the rows' 128 entries reads, at (p, q), the column at p. -/
theorem bcast_col3 {α : Type} (v : S4000x1.Idx → α) (h : S4000x1.Broadcasts S4000x128) (p : Fin 4000) (q : Fin 128) :
    broadcastTo S4000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's arithmetic at entry (p, q) of a block: the sum and the per-row product entrywise, the column of
    per-row factors read at p, the bias row read at q, the maximum against the zero word. -/
theorem pay3_apply (a h : Vec Ideal S4000x128 .f32) (d : Vec Ideal S4000x1 .f32) (b : Vec Ideal S1x128 .f32) (p : Fin 4000) (q : Fin 128) :
    k3_pay1 (F := Ideal) a h d b (ix2 p q)
      = FloatOps.maximumf (FloatOps.addf (FloatOps.addf (a (ix2 p q)) (FloatOps.mulf (h (ix2 p q)) (d (ix2 p (0 : Fin 1))))) (b (ix2 (0 : Fin 1) q)))
          (FloatOps.ofBits .f32 0x00000000#32) := by
  unfold k3_pay1
  simp only [shapeCast_self]
  show FloatOps.maximumf (F := Ideal) (φ := .f32) (FloatOps.addf (FloatOps.addf (a (ix2 p q)) (FloatOps.mulf (h (ix2 p q)) (broadcastTo S4000x128 d broadcasts_S4000x1_S4000x128 (ix2 p q)))) (broadcastTo S4000x128 b broadcasts_S1x128_S4000x128 (ix2 p q))) (FloatOps.ofBits .f32 0x00000000#32) = _
  rw [bcast_col3, broadcastTo_1b_ab_apply]

/-- A block's entry equals the whole-array step's entry as soon as the four block entries it reads are the arrays'
    (hypotheses over plain coordinates, instantiated at a grid point below). -/
theorem combine_block3 (ab hb : Vec Ideal S4000x128 .f32) (db : Vec Ideal S4000x1 .f32) (bb : Vec Ideal S1x128 .f32)
    (A H : FVec Ideal S100000x128 .f32) (D : FVec Ideal ⟨1, ![100000]⟩ .f32) (B : FVec Ideal ⟨1, ![128]⟩ .f32)
    (j : S4000x128.Idx) (i : S100000x128.Idx)
    (ha : ab j = A i) (hh : hb j = H i)
    (hd : db (ix2 (Cert.Spec.row j) (0 : Fin 1)) = D (ix1 (Cert.Spec.row i)))
    (hbias : bb (ix2 (0 : Fin 1) (Cert.Spec.col j)) = B (ix1 (Cert.Spec.col i))) :
    k3_pay1 (F := Ideal) ab hb db bb j = Cert.Spec.combine A H D B i := by
  have hj : j = ix2 (Cert.Spec.row j) (Cert.Spec.col j) := by
    funext a; match a with | ⟨0, _⟩ => rfl | ⟨1, _⟩ => rfl
  rw [hj, pay3_apply, ← hj, ha, hh, hd, hbias]
  rfl

/-- The arrays the region reads, at their literal types; the per-row factors and the bias read off the [n, 1] column
    and the [1, 128] row the region is given. -/
abbrev aggarr3 (c : Dev nD) : FVec Ideal S100000x128 .f32 := V c main_v73
abbrev harr3 (c : Dev nD) : FVec Ideal S100000x128 .f32 := V c main_v45
abbrev dcol3 (c : Dev nD) : FVec Ideal S100000x1 .f32 := V c main_v74
abbrev brow3 (c : Dev nD) : FVec Ideal S1x128 .f32 := V c main_v75
def dinv3 (c : Dev nD) : FVec Ideal ⟨1, ![100000]⟩ .f32 := fun r => dcol3 V c (ix2 (⟨(r 0).val, (r 0).isLt⟩ : Fin 100000) (0 : Fin 1))
def bias3 (c : Dev nD) : FVec Ideal ⟨1, ![128]⟩ .f32 := fun q => brow3 V c (ix2 (0 : Fin 1) (⟨(q 0).val, (q 0).isLt⟩ : Fin 128))

/-- The printed index maps over the 25 points: the three row-blocked inputs and the output move with the point, the
    bias row stays. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the whole-array step. -/
theorem flushed3 (c : Dev nD) (t : Fin cfg3.N) :
    (dat3 V c).flushed 4 t = ((cfg3.win 4).blk t).view.read (Elt Ideal)
      (Cert.Spec.combine (aggarr3 V c) (harr3 V c) (dinv3 V c) (bias3 V c)) := by
  show (cfg3.win 4).cut (grid3.coords t) ((dat3 V c).after 4 t) = _
  rw [after3_4]
  unfold out3_4
  rw [View.canon_unit_zero hz3]
  simp only [View.ld_unit_zero (S := S4000x128) hz3, View.ld_unit_zero (S := S4000x1) hz3, View.ld_unit_zero (S := S1x128) hz3]
  obtain ⟨e00, e01, e10, e11, e20, e21, e30, e31, e40, e41⟩ := idx_facts3 t
  funext j
  show k3_pay1 (F := Ideal) (iblk3 V c 0 t) (iblk3 V c 1 t) (iblk3 V c 2 t) (iblk3 V c 3 t) j
    = Cert.Spec.combine (aggarr3 V c) (harr3 V c) (dinv3 V c) (bias3 V c) (((cfg3.win 4).blk t).view.emb j)
  refine combine_block3 _ _ _ _ _ _ _ _ j _ ?_ ?_ ?_ ?_
  · show V c main_v73 (((cfg3.win 0).blk t).view.emb j) = V c main_v73 _
    refine congrArg _ (funext fun a => Fin.ext ?_)
    match a with
    | ⟨0, _⟩ => show win3_0.index t (0 : Fin 2) * 4000 + 1 * (j 0).val = win3_4.index t (0 : Fin 2) * 4000 + 1 * (j 0).val; omega
    | ⟨1, _⟩ => show win3_0.index t (1 : Fin 2) * 128 + 1 * (j 1).val = win3_4.index t (1 : Fin 2) * 128 + 1 * (j 1).val; omega
  · show V c main_v45 (((cfg3.win 1).blk t).view.emb j) = V c main_v45 _
    refine congrArg _ (funext fun a => Fin.ext ?_)
    match a with
    | ⟨0, _⟩ => show win3_1.index t (0 : Fin 2) * 4000 + 1 * (j 0).val = win3_4.index t (0 : Fin 2) * 4000 + 1 * (j 0).val; omega
    | ⟨1, _⟩ => show win3_1.index t (1 : Fin 2) * 128 + 1 * (j 1).val = win3_4.index t (1 : Fin 2) * 128 + 1 * (j 1).val; omega
  · show V c main_v74 (((cfg3.win 2).blk t).view.emb (ix2 (Cert.Spec.row j) (0 : Fin 1))) = V c main_v74 _
    refine congrArg _ (funext fun a => Fin.ext ?_)
    match a with
    | ⟨0, _⟩ => show win3_2.index t (0 : Fin 2) * 4000 + 1 * (j 0).val = win3_4.index t (0 : Fin 2) * 4000 + 1 * (j 0).val; omega
    | ⟨1, _⟩ => show win3_2.index t (1 : Fin 2) * 1 + 1 * 0 = 0; omega
  · show V c main_v75 (((cfg3.win 3).blk t).view.emb (ix2 (0 : Fin 1) (Cert.Spec.col j))) = V c main_v75 _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega

/-- An entry lies in point t's block iff each coordinate lies in the block's range on its axis. -/
theorem mem_blk3 (t : Fin cfg3.N) (i : S100000x128.Idx) :
    i ∈ ((cfg3.win 4).blk t).view.set ↔ ∀ a : Fin 2, win3_4.index t a * S4000x128.size a ≤ (i a).val ∧ (i a).val < win3_4.index t a * S4000x128.size a + S4000x128.size a := by
  show i ∈ ((View.whole main_v76).slice (win3_4.rect t)).set ↔ _
  rw [View.set_slice_whole, Rect.mem_set_unit]
  exact Iff.rfl

/-- Every entry lies in the block of the point its row divided by 4000 names. -/
theorem cover3 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  let t : Fin cfg3.N := ⟨(i 0).val / 4000, by show (i 0).val / 4000 < 25; omega⟩
  obtain ⟨e00, e01, e10, e11, e20, e21, e30, e31, e40, e41⟩ := idx_facts3 t
  have e40' : win3_4.index t (0 : Fin 2) = (i 0).val / 4000 := e40
  refine ⟨t, flush3_4 t, ?_⟩
  rw [mem_blk3]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 128 ≤ (i 1).val ∧ (i 1).val < win3_4.index t (1 : Fin 2) * 128 + 128; omega

/-- After the region the output array holds the whole-array step of the arrays the region found. -/
theorem final3 (c : Dev nD) : (dat3 V c).arrAt 4 cfg3.N
    = Cert.Spec.combine (aggarr3 V c) (harr3 V c) (dinv3 V c) (bias3 V c) :=
  (dat3 V c).arrAt_eq_of_cover 4 (Cert.Spec.combine (aggarr3 V c) (harr3 V c) (dinv3 V c) (bias3 V c)) (fun t _ => flushed3 V c t) cover3

end Cert.KernelIdeal.Regions
end
-- ==== Proof.Region4.lean ====
/-
  Region 4: the linear head out = E·Wₗ + bₗ, computed block by block (E the embeddings).

  The grid has 25 points; point t takes rows 4000·t … 4000·t + 3999 of E (128 columns), the whole [128, 16] weight
  and the whole [1, 16] bias row, and writes the same rows of the [100000, 16] output. At the exact instance entry
  (p, q) of a block is (∑ₖ E(4000·t + p, k) · Wₗ(k, q)) + bₗ(q): the body's product into a zero accumulator, then
  the bias row broadcast down the rows. So what point t writes back is block t of `Spec.head E Wₗ bₗ`, and the
  25 blocks tile the rows.
-/
import proofs.«111292_j54030688584325_1_alg».proof.Proof.Gen.KernelIdeal.Frame
import proofs.«111292_j54030688584325_1_alg».proof.Proof.LibMatmulPlain
import proofs.«111292_j54030688584325_1_alg».proof.Proof.Spec
import Idealize.ShloMosaic.Lib.Pipeline.Value
import Idealize.ShloMosaic.Lib.ValueLayout

set_option maxRecDepth 16384

noncomputable section
namespace Cert.KernelIdeal.Regions
open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-block access, as a function. -/
theorem hz4 : (![0, 0] : Fin 2 → Nat) = fun _ => 0 := funext fun a => by fin_cases a <;> rfl

/-- The body's arithmetic at entry (p, q) of a block: the sum over the contraction coordinate plus the bias at q. -/
theorem pay4_apply (x : Vec Ideal S4000x128 .f32) (w : Vec Ideal S128x16 .f32) (b : Vec Ideal S1x16 .f32) (p : Fin 4000) (q : Fin 16) :
    k4_pay1 (F := Ideal) x w b (ix2 p q) = FloatOps.addf (∑ k : Fin 128, x (ix2 p k) * w (ix2 k q)) (b (ix2 (0 : Fin 1) q)) := by
  unfold k4_pay1
  simp only [shapeCast_self]
  show FloatOps.addf (F := Ideal) (φ := .f32)
      (matmul dot_S4000x128_S128x16_S4000x16_1_0_0_1_n_n none x w (constant S4000x16 .f32 0x00000000#32) (ix2 p q))
      (broadcastTo S4000x16 b broadcasts_S1x16_S4000x16 (ix2 p q)) = _
  rw [broadcastTo_1b_ab_apply]
  exact congrArg (fun z => FloatOps.addf (F := Ideal) (φ := .f32) z (b (ix2 (0 : Fin 1) q))) (MatmulPlain.matmul_zero_apply none x w p q)

/-- A block's entry equals the whole head's entry as soon as the block's row of E, column of Wₗ and bias entry are
    the arrays'. -/
theorem head_block4 (xb : Vec Ideal S4000x128 .f32) (wb : Vec Ideal S128x16 .f32) (bb : Vec Ideal S1x16 .f32)
    (X : FVec Ideal S100000x128 .f32) (Wt : FVec Ideal S128x16 .f32) (B : FVec Ideal ⟨1, ![16]⟩ .f32)
    (j : S4000x16.Idx) (i : S100000x16.Idx)
    (hx : ∀ k : Fin 128, xb (ix2 (Cert.Spec.row j) k) = X (ix2 (Cert.Spec.row i) k))
    (hw : ∀ k : Fin 128, wb (ix2 k (Cert.Spec.col j)) = Wt (ix2 k (Cert.Spec.col i)))
    (hbias : bb (ix2 (0 : Fin 1) (Cert.Spec.col j)) = B (ix1 (Cert.Spec.col i))) :
    k4_pay1 (F := Ideal) xb wb bb j = Cert.Spec.head X Wt B i := by
  have hj : j = ix2 (Cert.Spec.row j) (Cert.Spec.col j) := by
    funext a; match a with | ⟨0, _⟩ => rfl | ⟨1, _⟩ => rfl
  rw [hj, pay4_apply, hbias]
  unfold Cert.Spec.head Cert.Spec.mm
  exact congrArg (fun z => FloatOps.addf (F := Ideal) (φ := .f32) z (B (ix1 (Cert.Spec.col i))))
    (Finset.sum_congr rfl fun k _ => by rw [hx k, hw k])

/-- The arrays the region reads, at their literal types; the bias read off the [1, 16] row the region is given. -/
abbrev xarr4 (c : Dev nD) : FVec Ideal S100000x128 .f32 := V c main_v76
abbrev warr4 (c : Dev nD) : FVec Ideal S128x16 .f32 := V c main_arg6
abbrev brow4 (c : Dev nD) : FVec Ideal S1x16 .f32 := V c main_v77
def bias4 (c : Dev nD) : FVec Ideal ⟨1, ![16]⟩ .f32 := fun q => brow4 V c (ix2 (0 : Fin 1) (⟨(q 0).val, (q 0).isLt⟩ : Fin 16))

/-- The printed index maps over the 25 points: E's and the output's row-block index is the point itself, every other
    block index is 0. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the whole head. -/
theorem flushed4 (c : Dev nD) (t : Fin cfg4.N) :
    (dat4 V c).flushed 3 t = ((cfg4.win 3).blk t).view.read (Elt Ideal) (Cert.Spec.head (xarr4 V c) (warr4 V c) (bias4 V c)) := by
  show (cfg4.win 3).cut (grid4.coords t) ((dat4 V c).after 3 t) = _
  rw [after4_3]
  unfold out4_3
  rw [View.canon_unit_zero hz4]
  simp only [View.ld_unit_zero (S := S4000x128) hz4, View.ld_unit_zero (S := S128x16) hz4, View.ld_unit_zero (S := S1x16) hz4]
  obtain ⟨e00, e01, e10, e11, e20, e21, e30, e31⟩ := idx_facts4 t
  funext j
  show k4_pay1 (F := Ideal) (iblk4 V c 0 t) (iblk4 V c 1 t) (iblk4 V c 2 t) j
    = Cert.Spec.head (xarr4 V c) (warr4 V c) (bias4 V c) (((cfg4.win 3).blk t).view.emb j)
  refine head_block4 _ _ _ _ _ _ j _ (fun k => ?_) (fun k => ?_) ?_
  · show V c main_v76 (((cfg4.win 0).blk t).view.emb (ix2 (Cert.Spec.row j) k)) = V c main_v76 _
    refine congrArg _ (funext fun a => Fin.ext ?_)
    match a with
    | ⟨0, _⟩ => show win4_0.index t (0 : Fin 2) * 4000 + 1 * (j 0).val = win4_3.index t (0 : Fin 2) * 4000 + 1 * (j 0).val; omega
    | ⟨1, _⟩ => show win4_0.index t (1 : Fin 2) * 128 + 1 * k.val = k.val; omega
  · show V c main_arg6 (((cfg4.win 1).blk t).view.emb (ix2 k (Cert.Spec.col j))) = V c main_arg6 _
    refine congrArg _ (funext fun a => Fin.ext ?_)
    match a with
    | ⟨0, _⟩ => show win4_1.index t (0 : Fin 2) * 128 + 1 * k.val = k.val; omega
    | ⟨1, _⟩ => show win4_1.index t (1 : Fin 2) * 16 + 1 * (j 1).val = win4_3.index t (1 : Fin 2) * 16 + 1 * (j 1).val; omega
  · show V c main_v77 (((cfg4.win 2).blk t).view.emb (ix2 (0 : Fin 1) (Cert.Spec.col j))) = V c main_v77 _
    refine congrArg _ (funext fun a => Fin.ext ?_)
    match a with
    | ⟨0, _⟩ => show win4_2.index t (0 : Fin 2) * 1 + 1 * 0 = 0; omega
    | ⟨1, _⟩ => show win4_2.index t (1 : Fin 2) * 16 + 1 * (j 1).val = win4_3.index t (1 : Fin 2) * 16 + 1 * (j 1).val; omega

/-- An entry lies in point t's block iff each coordinate lies in the block's range on its axis. -/
theorem mem_blk4 (t : Fin cfg4.N) (i : S100000x16.Idx) :
    i ∈ ((cfg4.win 3).blk t).view.set ↔ ∀ a : Fin 2, win4_3.index t a * S4000x16.size a ≤ (i a).val ∧ (i a).val < win4_3.index t a * S4000x16.size a + S4000x16.size a := by
  show i ∈ ((View.whole main_v78).slice (win4_3.rect t)).set ↔ _
  rw [View.set_slice_whole, Rect.mem_set_unit]
  exact Iff.rfl

/-- Every entry lies in the block of the point its row divided by 4000 names. -/
theorem cover4 (i : S100000x16.Idx) : ∃ t : Fin cfg4.N, (cfg4.win 3).flush t = true ∧ i ∈ ((cfg4.win 3).blk t).view.set := by
  have hi0 : (i 0).val < 100000 := (i 0).isLt
  have hi1 : (i 1).val < 16 := (i 1).isLt
  let t : Fin cfg4.N := ⟨(i 0).val / 4000, by show (i 0).val / 4000 < 25; omega⟩
  obtain ⟨e00, e01, e10, e11, e20, e21, e30, e31⟩ := idx_facts4 t
  have e30' : win4_3.index t (0 : Fin 2) = (i 0).val / 4000 := e30
  refine ⟨t, flush4_3 t, ?_⟩
  rw [mem_blk4]
  intro a
  match a with
  | ⟨0, _⟩ => show win4_3.index t (0 : Fin 2) * 4000 ≤ (i 0).val ∧ (i 0).val < win4_3.index t (0 : Fin 2) * 4000 + 4000; omega
  | ⟨1, _⟩ => show win4_3.index t (1 : Fin 2) * 16 ≤ (i 1).val ∧ (i 1).val < win4_3.index t (1 : Fin 2) * 16 + 16; omega

/-- After region 4 the output array holds the whole head of the arrays the region found. -/
theorem final4 (c : Dev nD) : (dat4 V c).arrAt 3 cfg4.N = Cert.Spec.head (xarr4 V c) (warr4 V c) (bias4 V c) :=
  (dat4 V c).arrAt_eq_of_cover 3 (Cert.Spec.head (xarr4 V c) (warr4 V c) (bias4 V c)) (fun t _ => flushed4 V c t) cover4

end Cert.KernelIdeal.Regions
end
-- ==== Proof.Fold.lean ====
/-
  The kernel program's two result arrays, read back through @main.

  @main is nine segments: four stretches of host operations and five blocked regions. The contents of every buffer
  at each segment boundary are a fold from the launch memory: a host stretch applies its operations, a region
  replaces its output array by what its blocks write back and leaves every other buffer alone. Reading the fold
  from the last boundary back to the launch:
    out  = head of (emb, Wₗ, bₗ)                      (region 4; the bias as a [1, 16] row made by the last stretch)
    emb  = layer 2 of (layer 1's output, W₂, b₂)       (regions 2 and 3 around the second aggregation)
    layer 1's output from (x, W₁, b₁)                  (regions 0 and 1 around the first aggregation)
  with the degree factors made once by the first stretch and never overwritten, the per-row factor handed to a
  region as an [n, 1] column and a bias as a [1, 128] row (reshapes: entry (r, 0) of the column is entry r of the
  vector, entry (0, q) of the row is entry q of the vector).
-/
import proofs.«111292_j54030688584325_1_alg».proof.Proof.Gen.KernelIdeal.Frame
import proofs.«111292_j54030688584325_1_alg».proof.Proof.HostChain
import proofs.«111292_j54030688584325_1_alg».proof.Proof.Model
import proofs.«111292_j54030688584325_1_alg».proof.Proof.Region0
import proofs.«111292_j54030688584325_1_alg».proof.Proof.Region1
import proofs.«111292_j54030688584325_1_alg».proof.Proof.Region2
import proofs.«111292_j54030688584325_1_alg».proof.Proof.Region3
import proofs.«111292_j54030688584325_1_alg».proof.Proof.Region4
import Idealize.ShloMosaic.Lib.StableHlo.Run
import Idealize.ShloMosaic.PureOps.Ideal

set_option maxRecDepth 16384

noncomputable section
namespace Cert.KernelIdeal.Fold
open Cert.KernelIdeal Cert.KernelIdeal.Gen Cert.KernelIdeal.Host Cert.KernelIdeal.Regions
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Reshapes of a vector to a one-column or a one-row matrix, read back -/

/-- Entry (r, 0) of the [n, 1] reshape of a per-node vector is its entry r. -/
theorem col_of_reshape (d : (⟨S100000, .f32⟩ : BufTy).Contents (Elt Ideal)) :
    (fun r : (⟨1, ![100000]⟩ : Shape).Idx => (shapeCast S100000x1 d shapeCasts_S100000_S100000x1) (ix2 (⟨(r 0).val, (r 0).isLt⟩ : Fin 100000) (0 : Fin 1))) = d := by
  funext r
  refine (shapeCast_apply d shapeCasts_S100000_S100000x1 _ r ?_).trans rfl
  rw [Shape.rowMajor_val_one, Shape.rowMajor_val_two]
  show (r 0).val = (r 0).val * 1 + 0
  omega

/-- Entry (0, q) of the [1, 128] reshape of a bias vector is its entry q. -/
theorem row_of_reshape128 (b : (⟨S128, .f32⟩ : BufTy).Contents (Elt Ideal)) :
    (fun q : (⟨1, ![128]⟩ : Shape).Idx => (shapeCast S1x128 b shapeCasts_S128_S1x128) (ix2 (0 : Fin 1) (⟨(q 0).val, (q 0).isLt⟩ : Fin 128))) = b := by
  funext q
  refine (shapeCast_apply b shapeCasts_S128_S1x128 _ q ?_).trans rfl
  rw [Shape.rowMajor_val_one, Shape.rowMajor_val_two]
  show (q 0).val = 0 * 128 + (q 0).val
  omega

/-- Entry (0, q) of the [1, 16] reshape of the head's bias vector is its entry q. -/
theorem row_of_reshape16 (b : (⟨S16, .f32⟩ : BufTy).Contents (Elt Ideal)) :
    (fun q : (⟨1, ![16]⟩ : Shape).Idx => (shapeCast S1x16 b shapeCasts_S16_S1x16) (ix2 (0 : Fin 1) (⟨(q 0).val, (q 0).isLt⟩ : Fin 16))) = b := by
  funext q
  refine (shapeCast_apply b shapeCasts_S16_S1x16 _ q ?_).trans rfl
  rw [Shape.rowMajor_val_one, Shape.rowMajor_val_two]
  show (q 0).val = 0 * 16 + (q 0).val
  omega

/-! ## After the first host stretch: the arguments untouched, the edge list's rows and the degree factors made -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

theorem W1_v1 (c : Dev nD) : W1 m ρ c (Proc.devRef .tc main_v1) = srcOf (m ((c : Thread nD τ).loc main_arg1)) := by
  show StableHlo.after hostOps0 (W0 m ρ c) (Proc.devRef .tc main_v1) = _
  after_results
  rfl
theorem W1_v3 (c : Dev nD) : W1 m ρ c (Proc.devRef .tc main_v3) = dstOf (m ((c : Thread nD τ).loc main_arg1)) := by
  show StableHlo.after hostOps0 (W0 m ρ c) (Proc.devRef .tc main_v3) = _
  after_results
  rfl
theorem W1_v10 (c : Dev nD) : W1 m ρ c (Proc.devRef .tc main_v10) = disOf (dstOf (m ((c : Thread nD τ).loc main_arg1))) := by
  show StableHlo.after hostOps0 (W0 m ρ c) (Proc.devRef .tc main_v10) = _
  after_results
  rfl
theorem W1_v12 (c : Dev nD) : W1 m ρ c (Proc.devRef .tc main_v12) = dinvOf (dstOf (m ((c : Thread nD τ).loc main_arg1))) := by
  show StableHlo.after hostOps0 (W0 m ρ c) (Proc.devRef .tc main_v12) = _
  after_results
  rfl

/-! ## After region 0: the first product; everything else as before -/

theorem W2_v13 (c : Dev nD) : W2 m ρ c (Proc.devRef .tc main_v13)
    = Cert.Spec.mm (M := 100000) (K := 512) (N := 128) (m ((c : Thread nD τ).loc main_arg0)) (m ((c : Thread nD τ).loc main_arg2)) := by
  refine (W2_arr m ρ c 2).trans ((final0 (V1 m ρ) c).trans ?_)
  show Cert.Spec.mm (W1 m ρ c (Proc.devRef .tc main_arg0)) (W1 m ρ c (Proc.devRef .tc main_arg2)) = _
  rw [W1_arg0, W1_arg2]
theorem W2_v1 (c : Dev nD) : W2 m ρ c (Proc.devRef .tc main_v1) = srcOf (m ((c : Thread nD τ).loc main_arg1)) :=
  (W2_of_ne m ρ c main_v1 (by decide)).trans (W1_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)
theorem W2_v10 (c : Dev nD) : W2 m ρ c (Proc.devRef .tc main_v10) = disOf (dstOf (m ((c : Thread nD τ).loc main_arg1))) :=
  (W2_of_ne m ρ c main_v10 (by decide)).trans (W1_v10 m ρ c)
theorem W2_v12 (c : Dev nD) : W2 m ρ c (Proc.devRef .tc main_v12) = dinvOf (dstOf (m ((c : Thread nD τ).loc main_arg1))) :=
  (W2_of_ne m ρ c main_v12 (by decide)).trans (W1_v12 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## After the second host stretch: the first aggregation, the factor column and the bias row -/

theorem W3_v41 (c : Dev nD) : W3 m ρ c (Proc.devRef .tc main_v41)
    = aggOf (srcOf (m ((c : Thread nD τ).loc main_arg1))) (dstOf (m ((c : Thread nD τ).loc main_arg1))) (disOf (dstOf (m ((c : Thread nD τ).loc main_arg1))))
        (Cert.Spec.mm (M := 100000) (K := 512) (N := 128) (m ((c : Thread nD τ).loc main_arg0)) (m ((c : Thread nD τ).loc main_arg2))) := by
  have h : W3 m ρ c (Proc.devRef .tc main_v41) = aggOf (W2 m ρ c (Proc.devRef .tc main_v1)) (W2 m ρ c (Proc.devRef .tc main_v3))
      (W2 m ρ c (Proc.devRef .tc main_v10)) (W2 m ρ c (Proc.devRef .tc main_v13)) := by
    show StableHlo.after hostOps1 (W2 m ρ c) (Proc.devRef .tc main_v41) = _
    after_results_simp <;> rfl
  rw [h, W2_v1, W2_v3, W2_v10, W2_v13]
theorem W3_v42 (c : Dev nD) : W3 m ρ c (Proc.devRef .tc main_v42)
    = shapeCast S100000x1 (dinvOf (dstOf (m ((c : Thread nD τ).loc main_arg1)))) shapeCasts_S100000_S100000x1 := by
  have h : W3 m ρ c (Proc.devRef .tc main_v42) = shapeCast S100000x1 (W2 m ρ c (Proc.devRef .tc main_v12)) shapeCasts_S100000_S100000x1 := by
    show StableHlo.after hostOps1 (W2 m ρ c) (Proc.devRef .tc main_v42) = _
    after_results_simp <;> rfl
  rw [h, W2_v12]
theorem W3_v43 (c : Dev nD) : W3 m ρ c (Proc.devRef .tc main_v43) = shapeCast S1x128 (m ((c : Thread nD τ).loc main_arg3)) shapeCasts_S128_S1x128 := by
  have h : W3 m ρ c (Proc.devRef .tc main_v43) = shapeCast S1x128 (W2 m ρ c (Proc.devRef .tc main_arg3)) shapeCasts_S128_S1x128 := by
    show StableHlo.after hostOps1 (W2 m ρ c) (Proc.devRef .tc main_v43) = _
    after_results_simp <;> rfl
  rw [h, W2_arg3]
theorem W3_v13 (c : Dev nD) : W3 m ρ c (Proc.devRef .tc main_v13) = Cert.Spec.mm (M := 100000) (K := 512) (N := 128) (m ((c : Thread nD τ).loc main_arg0)) (m ((c : Thread nD τ).loc main_arg2)) := by
  have h : W3 m ρ c (Proc.devRef .tc main_v13) = W2 m ρ c (Proc.devRef .tc main_v13) := by
    show StableHlo.after hostOps1 (W2 m ρ c) (Proc.devRef .tc main_v13) = _
    after_results_simp <;> rfl
  rw [h, W2_v13]
theorem W3_v1 (c : Dev nD) : W3 m ρ c (Proc.devRef .tc main_v1) = srcOf (m ((c : Thread nD τ).loc main_arg1)) := by
  have h : W3 m ρ c (Proc.devRef .tc main_v1) = W2 m ρ c (Proc.devRef .tc main_v1) := by
    show StableHlo.after hostOps1 (W2 m ρ c) (Proc.devRef .tc main_v1) = _
    after_results_simp <;> rfl
  rw [h, W2_v1]
theorem W3_v3 (c : Dev nD) : W3 m ρ c (Proc.devRef .tc main_v3) = dstOf (m ((c : Thread nD τ).loc main_arg1)) := by
  have h : W3 m ρ c (Proc.devRef .tc main_v3) = W2 m ρ c (Proc.devRef .tc main_v3) := by
    show StableHlo.after hostOps1 (W2 m ρ c) (Proc.devRef .tc main_v3) = _
    after_results_simp <;> rfl
  rw [h, W2_v3]
theorem W3_v10 (c : Dev nD) : W3 m ρ c (Proc.devRef .tc main_v10) = disOf (dstOf (m ((c : Thread nD τ).loc main_arg1))) := by
  have h : W3 m ρ c (Proc.devRef .tc main_v10) = W2 m ρ c (Proc.devRef .tc main_v10) := by
    show StableHlo.after hostOps1 (W2 m ρ c) (Proc.devRef .tc main_v10) = _
    after_results_simp <;> rfl
  rw [h, W2_v10]
theorem W3_v12 (c : Dev nD) : W3 m ρ c (Proc.devRef .tc main_v12) = dinvOf (dstOf (m ((c : Thread nD τ).loc main_arg1))) := by
  have h : W3 m ρ c (Proc.devRef .tc main_v12) = W2 m ρ c (Proc.devRef .tc main_v12) := by
    show StableHlo.after hostOps1 (W2 m ρ c) (Proc.devRef .tc main_v12) = _
    after_results_simp <;> rfl
  rw [h, W2_v12]
theorem W3_arg4 (c : Dev nD) : W3 m ρ c (Proc.devRef .tc main_arg4) = m ((c : Thread nD τ).loc main_arg4) := by
  have h : W3 m ρ c (Proc.devRef .tc main_arg4) = W2 m ρ c (Proc.devRef .tc main_arg4) := by
    show StableHlo.after hostOps1 (W2 m ρ c) (Proc.devRef .tc main_arg4) = _
    after_results_simp <;> rfl
  rw [h, W2_arg4]
theorem W3_arg5 (c : Dev nD) : W3 m ρ c (Proc.devRef .tc main_arg5) = m ((c : Thread nD τ).loc main_arg5) := by
  have h : W3 m ρ c (Proc.devRef .tc main_arg5) = W2 m ρ c (Proc.devRef .tc main_arg5) := by
    show StableHlo.after hostOps1 (W2 m ρ c) (Proc.devRef .tc main_arg5) = _
    after_results_simp <;> rfl
  rw [h, W2_arg5]
theorem W3_arg6 (c : Dev nD) : W3 m ρ c (Proc.devRef .tc main_arg6) = m ((c : Thread nD τ).loc main_arg6) := by
  have h : W3 m ρ c (Proc.devRef .tc main_arg6) = W2 m ρ c (Proc.devRef .tc main_arg6) := by
    show StableHlo.after hostOps1 (W2 m ρ c) (Proc.devRef .tc main_arg6) = _
    after_results_simp <;> rfl
  rw [h, W2_arg6]
theorem W3_arg7 (c : Dev nD) : W3 m ρ c (Proc.devRef .tc main_arg7) = m ((c : Thread nD τ).loc main_arg7) := by
  have h : W3 m ρ c (Proc.devRef .tc main_arg7) = W2 m ρ c (Proc.devRef .tc main_arg7) := by
    show StableHlo.after hostOps1 (W2 m ρ c) (Proc.devRef .tc main_arg7) = _
    after_results_simp <;> rfl
  rw [h, W2_arg7]

/-! ## After region 1: the first layer's output -/

theorem dinv1_V3 (c : Dev nD) : dinv1 (V3 m ρ) c = dinvOf (dstOf (m ((c : Thread nD τ).loc main_arg1))) := by
  unfold dinv1
  show (fun r : (⟨1, ![100000]⟩ : Shape).Idx => W3 m ρ c (Proc.devRef .tc main_v42) (ix2 (⟨(r 0).val, (r 0).isLt⟩ : Fin 100000) (0 : Fin 1))) = _
  rw [W3_v42]
  exact col_of_reshape _
theorem bias1_V3 (c : Dev nD) : bias1 (V3 m ρ) c = m ((c : Thread nD τ).loc main_arg3) := by
  unfold bias1
  show (fun q : (⟨1, ![128]⟩ : Shape).Idx => W3 m ρ c (Proc.devRef .tc main_v43) (ix2 (0 : Fin 1) (⟨(q 0).val, (q 0).isLt⟩ : Fin 128))) = _
  rw [W3_v43]
  exact row_of_reshape128 _

theorem W4_v44 (c : Dev nD) : W4 m ρ c (Proc.devRef .tc main_v44) = Cert.Model.layer (k := 512) (m ((c : Thread nD τ).loc main_arg1)) (m ((c : Thread nD τ).loc main_arg0)) (m ((c : Thread nD τ).loc main_arg2)) (m ((c : Thread nD τ).loc main_arg3)) := by
  refine (W4_arr m ρ c 4).trans ((final1 (V3 m ρ) c).trans ?_)
  show Cert.Spec.combine (W3 m ρ c (Proc.devRef .tc main_v41)) (W3 m ρ c (Proc.devRef .tc main_v13)) (dinv1 (V3 m ρ) c) (bias1 (V3 m ρ) c) = _
  rw [W3_v41, W3_v13, dinv1_V3, bias1_V3]
  rfl
theorem W4_v1 (c : Dev nD) : W4 m ρ c (Proc.devRef .tc main_v1) = srcOf (m ((c : Thread nD τ).loc main_arg1)) :=
  (W4_of_ne m ρ c main_v1 (by decide)).trans (W3_v1 m ρ c)
theorem W4_v3 (c : Dev nD) : W4 m ρ c (Proc.devRef .tc main_v3) = dstOf (m ((c : Thread nD τ).loc main_arg1)) :=
  (W4_of_ne m ρ c main_v3 (by decide)).trans (W3_v3 m ρ c)
theorem W4_v10 (c : Dev nD) : W4 m ρ c (Proc.devRef .tc main_v10) = disOf (dstOf (m ((c : Thread nD τ).loc main_arg1))) :=
  (W4_of_ne m ρ c main_v10 (by decide)).trans (W3_v10 m ρ c)
theorem W4_v12 (c : Dev nD) : W4 m ρ c (Proc.devRef .tc main_v12) = dinvOf (dstOf (m ((c : Thread nD τ).loc main_arg1))) :=
  (W4_of_ne m ρ c main_v12 (by decide)).trans (W3_v12 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

/-! ## After region 2: the second product -/

theorem W5_v45 (c : Dev nD) : W5 m ρ c (Proc.devRef .tc main_v45) = Cert.Spec.mm (M := 100000) (K := 128) (N := 128) (Cert.Model.layer (k := 512) (m ((c : Thread nD τ).loc main_arg1)) (m ((c : Thread nD τ).loc main_arg0)) (m ((c : Thread nD τ).loc main_arg2)) (m ((c : Thread nD τ).loc main_arg3))) (m ((c : Thread nD τ).loc main_arg4)) := by
  refine (W5_arr m ρ c 2).trans ((final2 (V4 m ρ) c).trans ?_)
  show Cert.Spec.mm (W4 m ρ c (Proc.devRef .tc main_v44)) (W4 m ρ c (Proc.devRef .tc main_arg4)) = _
  rw [W4_v44, W4_arg4]
theorem W5_v1 (c : Dev nD) : W5 m ρ c (Proc.devRef .tc main_v1) = srcOf (m ((c : Thread nD τ).loc main_arg1)) :=
  (W5_of_ne m ρ c main_v1 (by decide)).trans (W4_v1 m ρ c)
theorem W5_v3 (c : Dev nD) : W5 m ρ c (Proc.devRef .tc main_v3) = dstOf (m ((c : Thread nD τ).loc main_arg1)) :=
  (W5_of_ne m ρ c main_v3 (by decide)).trans (W4_v3 m ρ c)
theorem W5_v10 (c : Dev nD) : W5 m ρ c (Proc.devRef .tc main_v10) = disOf (dstOf (m ((c : Thread nD τ).loc main_arg1))) :=
  (W5_of_ne m ρ c main_v10 (by decide)).trans (W4_v10 m ρ c)
theorem W5_v12 (c : Dev nD) : W5 m ρ c (Proc.devRef .tc main_v12) = dinvOf (dstOf (m ((c : Thread nD τ).loc main_arg1))) :=
  (W5_of_ne m ρ c main_v12 (by decide)).trans (W4_v12 m ρ c)
theorem W5_arg5 (c : Dev nD) : W5 m ρ c (Proc.devRef .tc main_arg5) = m ((c : Thread nD τ).loc main_arg5) :=
  (W5_of_ne m ρ c main_arg5 (by decide)).trans (W4_arg5 m ρ c)
theorem W5_arg6 (c : Dev nD) : W5 m ρ c (Proc.devRef .tc main_arg6) = m ((c : Thread nD τ).loc main_arg6) :=
  (W5_of_ne m ρ c main_arg6 (by decide)).trans (W4_arg6 m ρ c)
theorem W5_arg7 (c : Dev nD) : W5 m ρ c (Proc.devRef .tc main_arg7) = m ((c : Thread nD τ).loc main_arg7) :=
  (W5_of_ne m ρ c main_arg7 (by decide)).trans (W4_arg7 m ρ c)

/-! ## After the third host stretch: the second aggregation, the factor column and the bias row again -/

theorem W6_v73 (c : Dev nD) : W6 m ρ c (Proc.devRef .tc main_v73)
    = aggOf (srcOf (m ((c : Thread nD τ).loc main_arg1))) (dstOf (m ((c : Thread nD τ).loc main_arg1))) (disOf (dstOf (m ((c : Thread nD τ).loc main_arg1)))) (Cert.Spec.mm (M := 100000) (K := 128) (N := 128) (Cert.Model.layer (k := 512) (m ((c : Thread nD τ).loc main_arg1)) (m ((c : Thread nD τ).loc main_arg0)) (m ((c : Thread nD τ).loc main_arg2)) (m ((c : Thread nD τ).loc main_arg3))) (m ((c : Thread nD τ).loc main_arg4))) := by
  have h : W6 m ρ c (Proc.devRef .tc main_v73) = aggOf (W5 m ρ c (Proc.devRef .tc main_v1)) (W5 m ρ c (Proc.devRef .tc main_v3))
      (W5 m ρ c (Proc.devRef .tc main_v10)) (W5 m ρ c (Proc.devRef .tc main_v45)) := by
    show StableHlo.after hostOps3 (W5 m ρ c) (Proc.devRef .tc main_v73) = _
    after_results_simp <;> rfl
  rw [h, W5_v1, W5_v3, W5_v10, W5_v45]
theorem W6_v74 (c : Dev nD) : W6 m ρ c (Proc.devRef .tc main_v74)
    = shapeCast S100000x1 (dinvOf (dstOf (m ((c : Thread nD τ).loc main_arg1)))) shapeCasts_S100000_S100000x1 := by
  have h : W6 m ρ c (Proc.devRef .tc main_v74) = shapeCast S100000x1 (W5 m ρ c (Proc.devRef .tc main_v12)) shapeCasts_S100000_S100000x1 := by
    show StableHlo.after hostOps3 (W5 m ρ c) (Proc.devRef .tc main_v74) = _
    after_results_simp <;> rfl
  rw [h, W5_v12]
theorem W6_v75 (c : Dev nD) : W6 m ρ c (Proc.devRef .tc main_v75) = shapeCast S1x128 (m ((c : Thread nD τ).loc main_arg5)) shapeCasts_S128_S1x128 := by
  have h : W6 m ρ c (Proc.devRef .tc main_v75) = shapeCast S1x128 (W5 m ρ c (Proc.devRef .tc main_arg5)) shapeCasts_S128_S1x128 := by
    show StableHlo.after hostOps3 (W5 m ρ c) (Proc.devRef .tc main_v75) = _
    after_results_simp <;> rfl
  rw [h, W5_arg5]
theorem W6_v45 (c : Dev nD) : W6 m ρ c (Proc.devRef .tc main_v45) = Cert.Spec.mm (M := 100000) (K := 128) (N := 128) (Cert.Model.layer (k := 512) (m ((c : Thread nD τ).loc main_arg1)) (m ((c : Thread nD τ).loc main_arg0)) (m ((c : Thread nD τ).loc main_arg2)) (m ((c : Thread nD τ).loc main_arg3))) (m ((c : Thread nD τ).loc main_arg4)) := by
  have h : W6 m ρ c (Proc.devRef .tc main_v45) = W5 m ρ c (Proc.devRef .tc main_v45) := by
    show StableHlo.after hostOps3 (W5 m ρ c) (Proc.devRef .tc main_v45) = _
    after_results_simp <;> rfl
  rw [h, W5_v45]
theorem W6_arg6 (c : Dev nD) : W6 m ρ c (Proc.devRef .tc main_arg6) = m ((c : Thread nD τ).loc main_arg6) := by
  have h : W6 m ρ c (Proc.devRef .tc main_arg6) = W5 m ρ c (Proc.devRef .tc main_arg6) := by
    show StableHlo.after hostOps3 (W5 m ρ c) (Proc.devRef .tc main_arg6) = _
    after_results_simp <;> rfl
  rw [h, W5_arg6]
theorem W6_arg7 (c : Dev nD) : W6 m ρ c (Proc.devRef .tc main_arg7) = m ((c : Thread nD τ).loc main_arg7) := by
  have h : W6 m ρ c (Proc.devRef .tc main_arg7) = W5 m ρ c (Proc.devRef .tc main_arg7) := by
    show StableHlo.after hostOps3 (W5 m ρ c) (Proc.devRef .tc main_arg7) = _
    after_results_simp <;> rfl
  rw [h, W5_arg7]

/-! ## After region 3: the embeddings -/

theorem dinv3_V6 (c : Dev nD) : dinv3 (V6 m ρ) c = dinvOf (dstOf (m ((c : Thread nD τ).loc main_arg1))) := by
  unfold dinv3
  show (fun r : (⟨1, ![100000]⟩ : Shape).Idx => W6 m ρ c (Proc.devRef .tc main_v74) (ix2 (⟨(r 0).val, (r 0).isLt⟩ : Fin 100000) (0 : Fin 1))) = _
  rw [W6_v74]
  exact col_of_reshape _
theorem bias3_V6 (c : Dev nD) : bias3 (V6 m ρ) c = m ((c : Thread nD τ).loc main_arg5) := by
  unfold bias3
  show (fun q : (⟨1, ![128]⟩ : Shape).Idx => W6 m ρ c (Proc.devRef .tc main_v75) (ix2 (0 : Fin 1) (⟨(q 0).val, (q 0).isLt⟩ : Fin 128))) = _
  rw [W6_v75]
  exact row_of_reshape128 _

theorem W7_v76 (c : Dev nD) : W7 m ρ c (Proc.devRef .tc main_v76) = Cert.Model.emb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ((final3 (V6 m ρ) c).trans ?_)
  show Cert.Spec.combine (W6 m ρ c (Proc.devRef .tc main_v73)) (W6 m ρ c (Proc.devRef .tc main_v45)) (dinv3 (V6 m ρ) c) (bias3 (V6 m ρ) c) = _
  rw [W6_v73, W6_v45, dinv3_V6, bias3_V6]
  rfl
theorem W7_arg6 (c : Dev nD) : W7 m ρ c (Proc.devRef .tc main_arg6) = m ((c : Thread nD τ).loc main_arg6) :=
  (W7_of_ne m ρ c main_arg6 (by decide)).trans (W6_arg6 m ρ c)
theorem W7_arg7 (c : Dev nD) : W7 m ρ c (Proc.devRef .tc main_arg7) = m ((c : Thread nD τ).loc main_arg7) :=
  (W7_of_ne m ρ c main_arg7 (by decide)).trans (W6_arg7 m ρ c)

/-! ## After the last host stretch: the head's bias row; after region 4: the output -/

theorem W8_v77 (c : Dev nD) : W8 m ρ c (Proc.devRef .tc main_v77) = shapeCast S1x16 (m ((c : Thread nD τ).loc main_arg7)) shapeCasts_S16_S1x16 := by
  have h : W8 m ρ c (Proc.devRef .tc main_v77) = shapeCast S1x16 (W7 m ρ c (Proc.devRef .tc main_arg7)) shapeCasts_S16_S1x16 := by
    show StableHlo.after hostOps4 (W7 m ρ c) (Proc.devRef .tc main_v77) = _
    after_results_simp <;> rfl
  rw [h, W7_arg7]
theorem W8_v76 (c : Dev nD) : W8 m ρ c (Proc.devRef .tc main_v76) = Cert.Model.emb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : W8 m ρ c (Proc.devRef .tc main_v76) = W7 m ρ c (Proc.devRef .tc main_v76) := by
    show StableHlo.after hostOps4 (W7 m ρ c) (Proc.devRef .tc main_v76) = _
    after_results_simp <;> rfl
  rw [h, W7_v76]
theorem W8_arg6 (c : Dev nD) : W8 m ρ c (Proc.devRef .tc main_arg6) = m ((c : Thread nD τ).loc main_arg6) := by
  have h : W8 m ρ c (Proc.devRef .tc main_arg6) = W7 m ρ c (Proc.devRef .tc main_arg6) := by
    show StableHlo.after hostOps4 (W7 m ρ c) (Proc.devRef .tc main_arg6) = _
    after_results_simp <;> rfl
  rw [h, W7_arg6]

theorem bias4_V8 (c : Dev nD) : bias4 (V8 m ρ) c = m ((c : Thread nD τ).loc main_arg7) := by
  unfold bias4
  show (fun q : (⟨1, ![16]⟩ : Shape).Idx => W8 m ρ c (Proc.devRef .tc main_v77) (ix2 (0 : Fin 1) (⟨(q 0).val, (q 0).isLt⟩ : Fin 16))) = _
  rw [W8_v77]
  exact row_of_reshape16 _

/-- The output array at the last boundary is the whole computation's output. -/
theorem W9_v78 (c : Dev nD) : W9 m ρ c (Proc.devRef .tc main_v78)
    = Cert.Model.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 3).trans ((final4 (V8 m ρ) c).trans ?_)
  show Cert.Spec.head (W8 m ρ c (Proc.devRef .tc main_v76)) (W8 m ρ c (Proc.devRef .tc main_arg6)) (bias4 (V8 m ρ) c) = _
  rw [W8_v76, W8_arg6, bias4_V8]
  rfl

/-- The embeddings array at the last boundary: region 4 only reads it. -/
theorem W9_v76 (c : Dev nD) : W9 m ρ c (Proc.devRef .tc main_v76) = Cert.Model.emb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W9_arr m ρ c 0).trans (((dat4 (V8 m ρ) c).arrAt_in 0 rfl _).trans (A_eq4 (V8 m ρ) c 0))).trans (W8_v76 m ρ c)

end Cert.KernelIdeal.Fold
end
-- ==== Proof.RefSide.lean ====
/-
  The reference program's two results are the same whole computation.

  The reference is one straight line of host operations; read stage by stage at an index:
    its first product is `Spec.mm x W₁` (a contraction over the 512 columns, as a finite sum);
    its edge-list rows and degree factors are the named host functions (the same operations, term for term);
    its aggregation is `aggOf` of those and the product (again term for term);
    its self-loop, bias and relu lines are `Spec.combine` entry by entry, the factor and the bias reaching the
      entry through two broadcasts each (vector → column → matrix, vector → row → matrix);
  so the first layer is `Model.layer`, the second likewise over the first's output, and the last product plus
  broadcast bias is `Spec.head`.
-/
import proofs.«111292_j54030688584325_1_alg».proof.Proof.Gen.ReferenceIdeal.Read
import proofs.«111292_j54030688584325_1_alg».proof.Proof.Model

set_option maxRecDepth 16384

noncomputable section
namespace Cert.ReferenceIdeal.RefValue
open Cert.ReferenceIdeal Cert.ReferenceIdeal.Read Idealize.ShloMosaic Idealize.ShloMosaic.TcCoe Idealize.ShloMosaic.ValueIdx

variable (x0 : (⟨S100000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x16, .f32⟩ : BufTy).Contents (Elt Ideal)) (x7 : (⟨S16, .f32⟩ : BufTy).Contents (Elt Ideal))

/-! ## The edge list's rows and the degree factors: the same host operations -/

theorem src_eq : val_main_v1 (F := Ideal) x1 = Cert.KernelIdeal.Host.srcOf x1 := rfl
theorem dst_eq : val_main_v3 (F := Ideal) x1 = Cert.KernelIdeal.Host.dstOf x1 := rfl
theorem dis_eq : val_main_v10 (F := Ideal) x1 = Cert.KernelIdeal.Host.disOf (Cert.KernelIdeal.Host.dstOf x1) := rfl
theorem dinv_eq : val_main_v12 (F := Ideal) x1 = Cert.KernelIdeal.Host.dinvOf (Cert.KernelIdeal.Host.dstOf x1) := rfl

/-! ## Layer 1 -/

/-- The first product, entry by entry. -/
theorem h1_eq : val_main_v13 (F := Ideal) x0 x2 = Cert.Spec.mm (M := 100000) (K := 512) (N := 128) x0 x2 := by
  funext i
  rw [val_main_v13_apply]
  unfold Cert.Spec.mm
  refine Finset.sum_congr rfl fun k _ => ?_
  have el : lidx_main_v13 i k = ix2 (Cert.Spec.row i) k := funext fun a => by
    match a with | ⟨0, _⟩ => rfl | ⟨1, _⟩ => rfl
  have er : ridx_main_v13 i k = ix2 k (Cert.Spec.col i) := funext fun a => by
    match a with | ⟨0, _⟩ => rfl | ⟨1, _⟩ => rfl
  rw [el, er]

/-- The first aggregation: the shared chain applied to the reference's own values. -/
theorem agg1_eq : val_main_v41 (F := Ideal) x0 x1 x2
    = Cert.KernelIdeal.Host.aggOf (val_main_v1 (F := Ideal) x1) (val_main_v3 (F := Ideal) x1) (val_main_v10 (F := Ideal) x1) (val_main_v13 (F := Ideal) x0 x2) := rfl

/-- The self-loop, bias and relu lines of layer 1, entry by entry. -/
theorem comb1_eq : val_main_v49 (F := Ideal) x0 x1 x2 x3
    = Cert.Spec.combine (F := Ideal) (R := 100000) (C := 128) (val_main_v41 (F := Ideal) x0 x1 x2) (val_main_v13 (F := Ideal) x0 x2) (val_main_v12 (F := Ideal) x1) x3 := by
  funext i
  rw [val_main_v49_apply, val_main_v48_apply, val_main_v45_apply, val_main_v44_apply, val_main_v43_apply, val_main_v42_apply,
    val_main_v47_apply, val_main_v46_apply, val_main_call0_v0_apply, val_main_call0_cst_apply]
  unfold Cert.Spec.combine
  have e1 : idx_main_v42 (idx_main_v43 i) = ix1 (Cert.Spec.row i) := funext fun a => by
    match a with | ⟨0, _⟩ => rfl
  have e2 : idx_main_v46 (idx_main_v47 i) = ix1 (Cert.Spec.col i) := funext fun a => by
    match a with | ⟨0, _⟩ => rfl
  rw [e1, e2]

theorem layer1_eq : val_main_v49 (F := Ideal) x0 x1 x2 x3 = Cert.Model.layer (k := 512) x1 x0 x2 x3 := by
  rw [comb1_eq, agg1_eq, h1_eq, src_eq, dst_eq, dis_eq, dinv_eq]
  rfl

/-! ## Layer 2 -/

theorem h2_eq : val_main_v50 (F := Ideal) x0 x1 x2 x3 x4
    = Cert.Spec.mm (M := 100000) (K := 128) (N := 128) (val_main_v49 (F := Ideal) x0 x1 x2 x3) x4 := by
  funext i
  rw [val_main_v50_apply]
  unfold Cert.Spec.mm
  refine Finset.sum_congr rfl fun k _ => ?_
  have el : lidx_main_v50 i k = ix2 (Cert.Spec.row i) k := funext fun a => by
    match a with | ⟨0, _⟩ => rfl | ⟨1, _⟩ => rfl
  have er : ridx_main_v50 i k = ix2 k (Cert.Spec.col i) := funext fun a => by
    match a with | ⟨0, _⟩ => rfl | ⟨1, _⟩ => rfl
  rw [el, er]

theorem agg2_eq : val_main_v78 (F := Ideal) x0 x1 x2 x3 x4
    = Cert.KernelIdeal.Host.aggOf (val_main_v1 (F := Ideal) x1) (val_main_v3 (F := Ideal) x1) (val_main_v10 (F := Ideal) x1) (val_main_v50 (F := Ideal) x0 x1 x2 x3 x4) := rfl

theorem comb2_eq : val_main_v86 (F := Ideal) x0 x1 x2 x3 x4 x5
    = Cert.Spec.combine (F := Ideal) (R := 100000) (C := 128) (val_main_v78 (F := Ideal) x0 x1 x2 x3 x4) (val_main_v50 (F := Ideal) x0 x1 x2 x3 x4) (val_main_v12 (F := Ideal) x1) x5 := by
  funext i
  rw [val_main_v86_apply, val_main_v85_apply, val_main_v82_apply, val_main_v81_apply, val_main_v80_apply, val_main_v79_apply,
    val_main_v84_apply, val_main_v83_apply, val_main_call1_v0_apply, val_main_call1_cst_apply]
  unfold Cert.Spec.combine
  have e1 : idx_main_v79 (idx_main_v80 i) = ix1 (Cert.Spec.row i) := funext fun a => by
    match a with | ⟨0, _⟩ => rfl
  have e2 : idx_main_v83 (idx_main_v84 i) = ix1 (Cert.Spec.col i) := funext fun a => by
    match a with | ⟨0, _⟩ => rfl
  rw [e1, e2]

/-- The reference's second result: the embeddings. -/
theorem emb_eq : val_main_v86 (F := Ideal) x0 x1 x2 x3 x4 x5 = Cert.Model.emb x0 x1 x2 x3 x4 x5 := by
  rw [comb2_eq, agg2_eq, h2_eq, layer1_eq, src_eq, dst_eq, dis_eq, dinv_eq]
  rfl

/-! ## The head -/

theorem h3_eq : val_main_v87 (F := Ideal) x0 x1 x2 x3 x4 x5 x6
    = Cert.Spec.mm (M := 100000) (K := 128) (N := 16) (val_main_v86 (F := Ideal) x0 x1 x2 x3 x4 x5) x6 := by
  funext i
  rw [val_main_v87_apply]
  unfold Cert.Spec.mm
  refine Finset.sum_congr rfl fun k _ => ?_
  have el : lidx_main_v87 i k = ix2 (Cert.Spec.row i) k := funext fun a => by
    match a with | ⟨0, _⟩ => rfl | ⟨1, _⟩ => rfl
  have er : ridx_main_v87 i k = ix2 k (Cert.Spec.col i) := funext fun a => by
    match a with | ⟨0, _⟩ => rfl | ⟨1, _⟩ => rfl
  rw [el, er]

/-- The reference's first result: the output. -/
theorem out_eq : val_main_v90 (F := Ideal) x0 x1 x2 x3 x4 x5 x6 x7 = Cert.Model.out x0 x1 x2 x3 x4 x5 x6 x7 := by
  funext i
  rw [val_main_v90_apply, val_main_v89_apply, val_main_v88_apply, h3_eq, emb_eq]
  unfold Cert.Model.out Cert.Spec.head
  have e : idx_main_v88 (idx_main_v89 i) = ix1 (Cert.Spec.col i) := funext fun a => by
    match a with | ⟨0, _⟩ => rfl
  rw [e]

end Cert.ReferenceIdeal.RefValue
end
-- ==== Proof.lean ====
/-
  The certificate: a two-layer graph convolution with a linear head, the dense steps as five blocked kernels,
  against the plain array program.

  Both programs compute, over the extended reals,
      emb = layer ei (layer ei x W₁ b₁) W₂ b₂,      out = emb · Wₗ + bₗ,
      layer ei X W b = relu ((agg (X·W) + (X·W) · deg⁻¹) + b),
  with the degree factors and the gather–scale–scatter aggregation `agg` the same host operations in both
  (Proof/HostChain.lean, Proof/Model.lean). The kernel program's two result arrays are read back through its nine
  segments (Proof/Fold.lean over the five regions' whole-array statements, Proof/Region0 … Region4.lean, and the run
  Proof/ValueRun.lean); the reference's through its generated run, stage by stage (Proof/RefSide.lean). The one law
  that joins the two sides is that a blocked product into a zero accumulator and the host's contraction are the same
  finite sum ∑ₖ a(p, k) · w(k, q); it needs no finiteness, so the precondition is never opened. Nothing was
  idealized by a rewrite, so the idealization claim is trivially true.
-/
import proofs.«111292_j54030688584325_1_alg».proof.Defs
import proofs.«111292_j54030688584325_1_alg».proof.Proof.Gen.Kernel
import proofs.«111292_j54030688584325_1_alg».proof.Proof.Gen.Kernel.Frame
import proofs.«111292_j54030688584325_1_alg».proof.Proof.Gen.KernelIdeal
import proofs.«111292_j54030688584325_1_alg».proof.Proof.Gen.KernelIdeal.Frame
import proofs.«111292_j54030688584325_1_alg».proof.Proof.Gen.ReferenceIdeal
import proofs.«111292_j54030688584325_1_alg».proof.Proof.Gen.Pre_finite_inputs
import proofs.«111292_j54030688584325_1_alg».proof.Proof.Gen.ReferenceIdeal.Run
import proofs.«111292_j54030688584325_1_alg».proof.Proof.Gen.ReferenceIdeal.Read
import proofs.«111292_j54030688584325_1_alg».proof.Proof.ValueRun
import proofs.«111292_j54030688584325_1_alg».proof.Proof.Fold
import proofs.«111292_j54030688584325_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the eight arguments both programs end with `Model.out` and `Model.emb` of those
    arguments in their result arrays. -/
theorem algebraic : Cert.algebraic_KernelIdeal_ReferenceIdeal := by
  intro m ρ m' ρ' _ hagree
  refine ⟨fun c => Cert.Model.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Model.emb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.ValueRun.run (F := Ideal) m ρ)
    obtain ⟨h78, h76, hargs⟩ := h c
    exact ⟨h78.trans (Cert.KernelIdeal.Fold.W9_v78 m ρ c), h76.trans (Cert.KernelIdeal.Fold.W9_v76 m ρ c), hargs⟩
  · refine (θ_run Cert.ReferenceIdeal.defs _ _).mono (fun r h c => ?_) (Cert.ReferenceIdeal.Value.run (F := Ideal) m' ρ')
    obtain ⟨h90, h86, hargs⟩ := h c
    obtain ⟨e0, e1, e2, e3, e4, e5, e6, e7⟩ := hagree c
    refine ⟨?_, ?_, hargs⟩
    · rw [h90, Cert.ReferenceIdeal.Read.val_main_v90_eq, Cert.ReferenceIdeal.RefValue.out_eq, e0, e1, e2, e3, e4, e5, e6, e7]
    · rw [h86, Cert.ReferenceIdeal.Read.val_main_v86_eq, Cert.ReferenceIdeal.RefValue.emb_eq, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
